-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S20000x256 .f32) (main_arg1 : IVec S2x320000 32) (main_arg2 : FVec F S256x256 .f32) (main_arg3 : FVec F S256x256 .f32) (main_arg4 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩
abbrev S2000x256 : Shape := ⟨2, ![2000, 256]⟩

abbrev nBuf : Space → Nat
  | .hbm => 38
  | .vmem => 9
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S256x256, .f32⟩
  | .hbm, ⟨35, _⟩ => ⟨S256x256, .f32⟩
  | .hbm, ⟨36, _⟩ => ⟨S1x256, .f32⟩
  | .hbm, ⟨37, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S256x256, .f32⟩
  | .hbm, ⟨35, _⟩ => ⟨S20000x256, .f32⟩
  | .hbm, ⟨36, _⟩ => ⟨S256x256, .f32⟩
  | .hbm, ⟨37, _⟩ => ⟨S20000x256, .f32⟩
  | .hbm, ⟨38, _⟩ => ⟨S20000x256, .f32⟩
  | .hbm, ⟨39, _⟩ => ⟨S1x256, .f32⟩
  | .hbm, ⟨40, _⟩ => ⟨S20000x256, .f32⟩
  | .hbm, ⟨41, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Layer.lean ====
/-
  The dense half of a mean-aggregating graph layer, as one function of its five arrays.

  For `R` nodes with 256 features each, `a` the aggregated neighbour features and `x` the nodes' own features
  (both `R × 256`), two `256 × 256` weight matrices `wl`, `wr` laid out contraction row first, and a bias row `b`
  (`1 × 256`), the layer's output at node `p` and output feature `q` is

      (∑ k, a (p, k) · wl (k, q)  +  ∑ k, x (p, k) · wr (k, q))  +  b (0, q)

  on the extended reals. Only additions and products occur, in this grouping, so nothing here asks whether an entry is
  finite. Row `p` of the output reads row `p` of `a` and of `x` and nothing else of them: an entry computed from a
  block of rows equals the entry computed from the whole arrays as soon as the rows it reads agree (`entry_congr`).
-/
import Idealize.ShloMosaic.PureOps.Ideal
import Idealize.ShloMosaic.Lib.ValueIdx

noncomputable section

namespace Cert.SageLinear

open Idealize.ShloMosaic Idealize.ShloMosaic.ValueIdx

/-- `R` nodes, 256 features each. -/
abbrev Rows (R : ℕ) : Shape := ⟨2, ![R, 256]⟩
/-- A weight matrix, contraction row first. -/
abbrev Weights : Shape := ⟨2, ![256, 256]⟩
/-- The bias, kept as a one-row matrix. -/
abbrev BiasRow : Shape := ⟨2, ![1, 256]⟩

/-- The output at node `p`, feature `q`. -/
def entry {R : ℕ} (a x : FVec Ideal (Rows R) .f32) (wl wr : FVec Ideal Weights .f32) (b : FVec Ideal BiasRow .f32)
    (p : Fin R) (q : Fin 256) : EReal :=
  (∑ k : Fin 256, a (ix2 p k) * wl (ix2 k q) + ∑ k : Fin 256, x (ix2 p k) * wr (ix2 k q)) + b (ix2 (0 : Fin 1) q)

/-- The whole output array. -/
def layer {R : ℕ} (a x : FVec Ideal (Rows R) .f32) (wl wr : FVec Ideal Weights .f32) (b : FVec Ideal BiasRow .f32) :
    FVec Ideal (Rows R) .f32 :=
  fun i => entry a x wl wr b (i 0) (i 1)

theorem layer_apply {R : ℕ} (a x : FVec Ideal (Rows R) .f32) (wl wr : FVec Ideal Weights .f32) (b : FVec Ideal BiasRow .f32)
    (p : Fin R) (q : Fin 256) : layer a x wl wr b (ix2 p q) = entry a x wl wr b p q := rfl

/-- An entry depends on row `p` of the two feature arrays, column `q` of the two weight matrices and entry `q` of the
    bias row only: two families of arrays that agree there give the same entry, whatever their numbers of rows. -/
theorem entry_congr {R r : ℕ} (a x : FVec Ideal (Rows R) .f32) (a' x' : FVec Ideal (Rows r) .f32)
    (wl wr wl' wr' : FVec Ideal Weights .f32) (b b' : FVec Ideal BiasRow .f32) (p : Fin R) (p' : Fin r) (q : Fin 256)
    (ha : ∀ k : Fin 256, a' (ix2 p' k) = a (ix2 p k)) (hx : ∀ k : Fin 256, x' (ix2 p' k) = x (ix2 p k))
    (hwl : ∀ k : Fin 256, wl' (ix2 k q) = wl (ix2 k q)) (hwr : ∀ k : Fin 256, wr' (ix2 k q) = wr (ix2 k q))
    (hb : b' (ix2 (0 : Fin 1) q) = b (ix2 (0 : Fin 1) q)) :
    entry a' x' wl' wr' b' p' q = entry a x wl wr b p q := by
  unfold entry
  rw [Finset.sum_congr rfl (fun k _ => by rw [ha k, hwl k] : ∀ k ∈ Finset.univ, a' (ix2 p' k) * wl' (ix2 k q) = a (ix2 p k) * wl (ix2 k q)),
    Finset.sum_congr rfl (fun k _ => by rw [hx k, hwr k] : ∀ k ∈ Finset.univ, x' (ix2 p' k) * wr' (ix2 k q) = x (ix2 p k) * wr (ix2 k q)),
    hb]

end Cert.SageLinear

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.LayerBody.lean ====
/-
  The kernel body's arithmetic, read at one entry.

  On a block of `R` rows the body forms two matrix products into the zero accumulator — the aggregated features with the
  first weight matrix, the nodes' own features with the second, every operand first narrowed to a shorter float
  format — adds them, and adds the bias row repeated over the rows. On the extended reals narrowing a format changes
  nothing, a shape cast to the same shape is the identity, a product into the zero accumulator is the textbook sum over
  the contraction position, and the repeated row read at `(p, q)` is the row at `q`: so the body's value at `(p, q)` is
  the layer's entry there.
-/
import proofs.«125227_j36885179138430_1_alg».proof.Proof.Layer
import proofs.«125227_j36885179138430_1_alg».proof.Proof.LibPlainDot
import Idealize.ShloMosaic.Lib.ValueLayout

noncomputable section

namespace Cert.SageLinear

open Idealize.ShloMosaic Idealize.ShloMosaic.ValueIdx

/-- The body's expression over its five loaded blocks, at entry `(p, q)`, is the layer's entry. The dimension record of
    the two products is a variable with its six printed fields as hypotheses. -/
theorem body_entry {R : ℕ} (D : DotDims (Rows R) Weights (Rows R))
    (hlc : D.lhsContracting = [1]) (hrc : D.rhsContracting = [0]) (hln : D.lhsNonContracting = [0])
    (hrn : D.rhsNonContracting = [1]) (hlb : D.lhsBatch = []) (hrb : D.rhsBatch = [])
    (x0 x1 : FVec Ideal (Rows R) .f32) (x2 x3 : FVec Ideal Weights .f32) (x4 : FVec Ideal BiasRow .f32)
    (hr : (Rows R).ShapeCasts (Rows R)) (hw : Weights.ShapeCasts Weights) (hbias : BiasRow.ShapeCasts BiasRow)
    (hlt : FTy.bits .bf16 < FTy.bits .f32) (hbc : BiasRow.Broadcasts (Rows R)) (p : Fin R) (q : Fin 256) :
    addf (addf
        (FloatOps.matmul D none (truncf .bf16 (shapeCast (Rows R) x0 hr) hlt) (truncf .bf16 (shapeCast Weights x2 hw) hlt)
          (constant (F := Ideal) (Rows R) .f32 0x00000000#32))
        (FloatOps.matmul D none (truncf .bf16 x1 hlt) (truncf .bf16 (shapeCast Weights x3 hw) hlt)
          (constant (F := Ideal) (Rows R) .f32 0x00000000#32)))
      (broadcastTo (Rows R) (shapeCast BiasRow x4 hbias) hbc) (ix2 p q)
    = entry x0 x1 x2 x3 x4 p q := by
  rw [addf_apply, addf_apply,
    Cert.PlainDot.matmul_zero_apply D hlc hrc hln hrn hlb hrb, Cert.PlainDot.matmul_zero_apply D hlc hrc hln hrn hlb hrb,
    broadcastTo_1b_ab_apply]
  simp only [truncf_apply, shapeCast_self]
  rfl

end Cert.SageLinear

end
-- ==== Proof.Payload.lean ====
/-
  The kernel's one stored value, on a block of 2000 rows, is the layer on those rows.

  The body loads a block of aggregated features, the matching block of node features, both weight matrices whole and
  the bias row, and stores one value: its arithmetic, as one term of the five loads, is exactly the expression read in
  `Cert.SageLinear.body_entry`, at the printed dimension record of a `2000 × 256` by `256 × 256` product.
-/
import proofs.«125227_j36885179138430_1_alg».proof.Proof.Gen.KernelIdeal.Skeleton
import proofs.«125227_j36885179138430_1_alg».proof.Proof.LayerBody

noncomputable section

namespace Cert.KernelIdeal.BlockValue

open Cert.KernelIdeal Cert.KernelIdeal.Gen Idealize.ShloMosaic Idealize.ShloMosaic.ValueIdx Cert.SageLinear

/-- The stored value of a grid point, as a function of the five blocks it loads, is the layer over 2000 rows. -/
theorem payload_eq (x0 x1 : Vec Ideal S2000x256 .f32) (x2 x3 : Vec Ideal S256x256 .f32) (x4 : Vec Ideal S1x256 .f32) :
    k0_pay1 (F := Ideal) x0 x1 x2 x3 x4 = layer (R := 2000) x0 x1 x2 x3 x4 := by
  funext j
  obtain ⟨p, q, rfl⟩ : ∃ (p : Fin 2000) (q : Fin 256), j = ix2 p q := ⟨j 0, j 1, eq_ix2 j⟩
  exact body_entry dot_S2000x256_S256x256_S2000x256_1_0_0_1_n_n rfl rfl rfl rfl rfl rfl x0 x1 x2 x3 x4
    shapeCasts_S2000x256_S2000x256 shapeCasts_S256x256_S256x256 shapeCasts_S1x256_S1x256 bitsLt_bf16_f32
    broadcasts_S1x256_S2000x256 p q

end Cert.KernelIdeal.BlockValue

end
-- ==== Proof.KernelValue.lean ====
/-
  From the kernel's blocks to its whole result array.

  The grid has ten points. Point `t` reads rows `2000·t … 2000·t + 1999` of the aggregated features and of the node
  features, the two weight matrices and the bias row whole, and writes the same rows of the result. By the block
  lemma the rows it writes are the layer on the rows it read; an entry of the layer depends on its own row of the two
  feature arrays only, so these are rows `2000·t …` of the layer on the WHOLE arrays as the region finds them. Row `r` of
  the result lies in the block of point `r / 2000`, so the ten blocks cover the array, and after the run the result
  array is the layer of the five arrays the region found.
-/
import proofs.«125227_j36885179138430_1_alg».proof.Proof.Gen.KernelIdeal.Value
import proofs.«125227_j36885179138430_1_alg».proof.Proof.Payload

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.SageLinear
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The layer of the five arrays the region finds on core `c`: the aggregate the host operations computed, the node
    features, the two transposed weight matrices, the bias as a row. -/
abbrev result (c : Dev nD) : S20000x256.Idx → Elt Ideal .f32 :=
  layer (R := 20000) (V m c main_v22) (V m c main_arg0) (V m c main_v23) (V m c main_v24) (V m c main_v25)

/-- The printed index maps over the ten points: the three row-blocked windows sit at block row `t`, block column `0`;
    the weights and the bias always at block `(0, 0)`. -/
theorem block_index : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` stores at `(p, q)` of its block is the layer of the whole arrays at row `2000·t + p`, column `q`. -/
theorem point_entry (c : Dev nD) (t : Fin cfg0.N) (p : Fin 2000) (q : Fin 256) :
    k0_pay1 (F := Ideal) (iblk m c 0 t) (iblk m c 1 t) (iblk m c 2 t) (iblk m c 3 t) (iblk m c 4 t) (ix2 p q)
      = result m c (((cfg0.win 5).blk t).view.emb (ix2 p q)) := by
  obtain ⟨e50, e51, e00, e01, e10, e11, e20, e21, e30, e31, e40, e41⟩ := block_index t
  have ht : t.val < 10 := t.isLt
  have hp : p.val < 2000 := p.isLt
  have hrow : ((cfg0.win 5).blk t).view.emb (ix2 p q) = ix2 (⟨t.val * 2000 + p.val, by omega⟩ : Fin 20000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  refine (congrFun (BlockValue.payload_eq (iblk m c 0 t) (iblk m c 1 t) (iblk m c 2 t) (iblk m c 3 t) (iblk m c 4 t)) (ix2 p q)).trans ?_
  rw [hrow]
  show entry (iblk m c 0 t) (iblk m c 1 t) (iblk m c 2 t) (iblk m c 3 t) (iblk m c 4 t) p q
    = entry (V m c main_v22) (V m c main_arg0) (V m c main_v23) (V m c main_v24) (V m c main_v25)
        (⟨t.val * 2000 + p.val, by omega⟩ : Fin 20000) q
  refine entry_congr (V m c main_v22) (V m c main_arg0) (iblk m c 0 t) (iblk m c 1 t) (V m c main_v23) (V m c main_v24)
    (iblk m c 2 t) (iblk m c 3 t) (V m c main_v25) (iblk m c 4 t) (⟨t.val * 2000 + p.val, by omega⟩ : Fin 20000) p q
    (fun k => ?_) (fun k => ?_) (fun k => ?_) (fun k => ?_) ?_
  · show V m c main_v22 (((cfg0.win 0).blk t).view.emb (ix2 p k)) = V m c main_v22 (ix2 (⟨t.val * 2000 + p.val, by omega⟩ : Fin 20000) k)
    refine congrArg (V m c main_v22) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · show V m c main_arg0 (((cfg0.win 1).blk t).view.emb (ix2 p k)) = V m c main_arg0 (ix2 (⟨t.val * 2000 + p.val, by omega⟩ : Fin 20000) k)
    refine congrArg (V m c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 256 + 1 * k.val = k.val; omega
  · show V m c main_v23 (((cfg0.win 2).blk t).view.emb (ix2 k q)) = V m c main_v23 (ix2 k q)
    refine congrArg (V m c main_v23) (funext fun a => Fin.ext ?_)
    match a with
    | ⟨0, _⟩ => show win0_2.index t (0 : Fin 2) * 256 + 1 * k.val = k.val; omega
    | ⟨1, _⟩ => show win0_2.index t (1 : Fin 2) * 256 + 1 * q.val = q.val; omega
  · show V m c main_v24 (((cfg0.win 3).blk t).view.emb (ix2 k q)) = V m c main_v24 (ix2 k q)
    refine congrArg (V m c main_v24) (funext fun a => Fin.ext ?_)
    match a with
    | ⟨0, _⟩ => show win0_3.index t (0 : Fin 2) * 256 + 1 * k.val = k.val; omega
    | ⟨1, _⟩ => show win0_3.index t (1 : Fin 2) * 256 + 1 * q.val = q.val; omega
  · show V m c main_v25 (((cfg0.win 4).blk t).view.emb (ix2 (0 : Fin 1) q)) = V m c main_v25 (ix2 (0 : Fin 1) q)
    refine congrArg (V m c main_v25) (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega

/-- WHAT POINT `t` WRITES BACK is block `t` of the layer of the arrays the region finds. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S2000x256) origin, View.ld_unit_zero (S := S256x256) origin, View.ld_unit_zero (S := S1x256) origin]
  funext j
  obtain ⟨p, q, rfl⟩ : ∃ (p : Fin 2000) (q : Fin 256), j = ix2 p q := ⟨j 0, j 1, eq_ix2 j⟩
  exact point_entry m c t p q

/-- An index of the result array is in point `t`'s block iff each coordinate is in the block's range on its axis. -/
theorem mem_block (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Row `r` of the result is written by point `r / 2000`: the ten blocks cover the array. -/
theorem covered (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  obtain ⟨t, ht⟩ : ∃ t : Fin cfg0.N, t.val = (i 0).val / 2000 :=
    ⟨⟨(i 0).val / 2000, (by omega : (i 0).val / 2000 < 10)⟩, rfl⟩
  obtain ⟨e50, e51, -⟩ := block_index t
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the run is the layer of the arrays the region finds. -/
theorem final (c : Dev nD) : (dats m 0 c).arrAt 5 cfg0.N = result m c :=
  (dats m 0 c).arrAt_eq_of_cover 5 (result m c) (fun t _ => flushed_eq m c t) covered

/-- The kernel's run with its result named: every weakly fair execution ends with the result array at the layer of the
    region-entry arrays and the arguments as launched. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference's result is the layer over all 20000 rows.

  The reference forms the aggregated features (its stage `%22`), transposes the two weight matrices (`%23`, `%25`),
  takes the two matrix products, adds them, and adds the bias broadcast first to one row (`%28`) and then over the rows.
  Read at `(p, q)`: each product is the sum over the contraction position `k` of the left operand at `(p, k)` times the
  right at `(k, q)`, and the twice-broadcast bias is the one row at `(0, q)`. That is the layer's entry, with the
  aggregated features, the node features, the two transposed matrices and the bias row as its five arrays.
-/
import proofs.«125227_j36885179138430_1_alg».proof.Proof.Gen.ReferenceIdeal.Read
import proofs.«125227_j36885179138430_1_alg».proof.Proof.Layer

noncomputable section

namespace Cert.ReferenceIdeal.LayerValue

open Cert.ReferenceIdeal Cert.ReferenceIdeal.Read Idealize.ShloMosaic Idealize.ShloMosaic.ValueIdx Cert.SageLinear

/-- The reference's last stage, as a function of the five argument arrays, is the layer of its own intermediate
    stages: the aggregate, the node features, the transposed weights and the bias row. -/
theorem result_eq (x0 : (⟨S20000x256, .f32⟩ : BufTy).Contents (Elt Ideal)) (x1 : (⟨S2x320000, .i32⟩ : BufTy).Contents (Elt Ideal))
    (x2 x3 : (⟨S256x256, .f32⟩ : BufTy).Contents (Elt Ideal)) (x4 : (⟨S256, .f32⟩ : BufTy).Contents (Elt Ideal)) :
    val_main_v30 (F := Ideal) x0 x1 x2 x3 x4
      = layer (R := 20000) (val_main_v22 (F := Ideal) x0 x1) x0 (val_main_v23 (F := Ideal) x2) (val_main_v25 (F := Ideal) x3)
          (val_main_v28 (F := Ideal) x4) := by
  funext i
  obtain ⟨p, q, rfl⟩ : ∃ (p : Fin 20000) (q : Fin 256), i = ix2 p q := ⟨i 0, i 1, eq_ix2 i⟩
  have el24 : ∀ k : Fin 256, lidx_main_v24 (ix2 p q) k = ix2 p k := fun k => funext fun a => Fin.ext (by
    match a with
    | ⟨0, _⟩ => rfl
    | ⟨1, _⟩ => rfl)
  have er24 : ∀ k : Fin 256, ridx_main_v24 (ix2 p q) k = ix2 k q := fun k => funext fun a => Fin.ext (by
    match a with
    | ⟨0, _⟩ => rfl
    | ⟨1, _⟩ => rfl)
  have el26 : ∀ k : Fin 256, lidx_main_v26 (ix2 p q) k = ix2 p k := fun k => funext fun a => Fin.ext (by
    match a with
    | ⟨0, _⟩ => rfl
    | ⟨1, _⟩ => rfl)
  have er26 : ∀ k : Fin 256, ridx_main_v26 (ix2 p q) k = ix2 k q := fun k => funext fun a => Fin.ext (by
    match a with
    | ⟨0, _⟩ => rfl
    | ⟨1, _⟩ => rfl)
  have e29 : idx_main_v29 (ix2 p q) = ix2 (0 : Fin 1) q := funext fun a => Fin.ext (by
    match a with
    | ⟨0, _⟩ => rfl
    | ⟨1, _⟩ => rfl)
  rw [val_main_v30_apply, val_main_v27_apply, val_main_v24_apply, val_main_v26_apply, val_main_v29_apply, layer_apply]
  unfold entry
  simp only [el24, er24, el26, er26, e29, Ideal.addf_def]

end Cert.ReferenceIdeal.LayerValue

end
-- ==== Proof.EntryArrays.lean ====
/-
  The arrays the kernel's region finds are the reference's own intermediate stages.

  Before the region the kernel's program runs, on the host, the very operations the reference starts with: the two
  rows of the edge list, the gather of the source nodes' features, the two scatter-additions by destination node (the
  feature sums and the in-degree), the degree raised to at least one, the quotient — the mean over the in-neighbours —,
  and the two weight matrices transposed. The two programs print these as the same operations on the same literals, so
  the aggregate and the transposed weights the region finds are, as terms of the launch arrays, the reference's stages:
  the chain is never opened, only matched. The bias reaches the kernel reshaped to one row and the reference broadcast
  to one row: both are the bias at `q` in column `q`.
-/
import proofs.«125227_j36885179138430_1_alg».proof.Proof.Gen.KernelIdeal.Frame
import proofs.«125227_j36885179138430_1_alg».proof.Proof.Gen.ReferenceIdeal.Read
import proofs.«125227_j36885179138430_1_alg».proof.Proof.Layer
import Idealize.ShloMosaic.Lib.ValueLayout

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx Cert.SageLinear

variable (m : (ℓ : Loc nD τ sig) → Buf (Elt Ideal) ℓ)

/-- The aggregate the region finds is the reference's mean-aggregation stage of the launch features and edge list. -/
theorem aggregate_eq (c : Dev nD) :
    (V m c main_v22 : S20000x256.Idx → EReal)
      = Cert.ReferenceIdeal.Read.val_main_v22 (F := Ideal) (m ((c : Thread nD τ).loc main_arg0)) (m ((c : Thread nD τ).loc main_arg1)) := by
  dsimp only [V, hostOps0]; after_results_simp; rfl

/-- The first weight matrix the region finds is the reference's transpose of the first launch matrix. -/
theorem weights_left_eq (c : Dev nD) :
    (V m c main_v23 : S256x256.Idx → EReal) = Cert.ReferenceIdeal.Read.val_main_v23 (F := Ideal) (m ((c : Thread nD τ).loc main_arg2)) := by
  dsimp only [V, hostOps0]; after_results_simp; rfl

/-- The second weight matrix the region finds is the reference's transpose of the second launch matrix. -/
theorem weights_right_eq (c : Dev nD) :
    (V m c main_v24 : S256x256.Idx → EReal) = Cert.ReferenceIdeal.Read.val_main_v25 (F := Ideal) (m ((c : Thread nD τ).loc main_arg3)) := by
  dsimp only [V, hostOps0]; after_results_simp; rfl

/-- The bias row the region finds and the reference's bias row hold the bias itself, column by column. -/
theorem bias_row_eq (c : Dev nD) (q : Fin 256) :
    (V m c main_v25 : S1x256.Idx → EReal) (ix2 (0 : Fin 1) q)
      = Cert.ReferenceIdeal.Read.val_main_v28 (F := Ideal) (m ((c : Thread nD τ).loc main_arg4)) (ix2 (0 : Fin 1) q) := by
  have e : (V m c main_v25 : S1x256.Idx → EReal) = shapeCast S1x256 (m ((c : Thread nD τ).loc main_arg4)) shapeCasts_S256_S1x256 := by
    dsimp only [V, hostOps0]; after_results_simp; rfl
  rw [e, shapeCast_a_1a_apply, Cert.ReferenceIdeal.Read.val_main_v28_apply]
  exact congrArg (m ((c : Thread nD τ).loc main_arg4)) (funext fun a => Fin.ext (by
    match a with
    | ⟨0, _⟩ => rfl))

/-- The layer of the reference's stages of the launch arrays is the layer of the arrays the kernel's region finds:
    the aggregate and the two transposed matrices are the same arrays, the node features are the launch features,
    and the two bias rows agree in every column. -/
theorem layers_agree (c : Dev nD) :
    layer (R := 20000)
        (Cert.ReferenceIdeal.Read.val_main_v22 (F := Ideal) (m ((c : Thread nD τ).loc main_arg0)) (m ((c : Thread nD τ).loc main_arg1)))
        (m ((c : Thread nD τ).loc main_arg0))
        (Cert.ReferenceIdeal.Read.val_main_v23 (F := Ideal) (m ((c : Thread nD τ).loc main_arg2)))
        (Cert.ReferenceIdeal.Read.val_main_v25 (F := Ideal) (m ((c : Thread nD τ).loc main_arg3)))
        (Cert.ReferenceIdeal.Read.val_main_v28 (F := Ideal) (m ((c : Thread nD τ).loc main_arg4)))
      = layer (R := 20000) (V m c main_v22) (V m c main_arg0) (V m c main_v23) (V m c main_v24) (V m c main_v25) := by
  funext i
  obtain ⟨p, q, rfl⟩ : ∃ (p : Fin 20000) (q : Fin 256), i = ix2 p q := ⟨i 0, i 1, eq_ix2 i⟩
  rw [layer_apply, layer_apply]
  exact entry_congr (V m c main_v22) (V m c main_arg0) _ _ (V m c main_v23) (V m c main_v24) _ _ (V m c main_v25) _ p p q
    (fun k => (congrFun (aggregate_eq m c) (ix2 p k)).symm)
    (fun k => (congrFun (V_main_arg0 m c) (ix2 p k)).symm)
    (fun k => (congrFun (weights_left_eq m c) (ix2 k q)).symm)
    (fun k => (congrFun (weights_right_eq m c) (ix2 k q)).symm)
    (bias_row_eq m c q).symm

end Cert.KernelIdeal.EntryArrays

end
-- ==== Proof.lean ====
/-
  A mean-aggregating graph layer: the kernel against its reference, on the extended reals.

  Both programs first form, on the host and by the same operations, the mean of each node's in-neighbours' features
  (a gather by source node, two scatter-additions by destination node, a quotient by the in-degree raised to at least
  one) and transpose the two weight matrices. The reference then takes the two matrix products over all 20000 nodes,
  adds them and adds the bias. The kernel does the same arithmetic in ten blocks of 2000 nodes, each product into a
  zero accumulator and its operands first narrowed to a shorter float format, which on the extended reals changes
  nothing. At node `p` and output feature `q` both are

      (∑ k, aggregate (p, k) · W_lᵀ (k, q)  +  ∑ k, x (p, k) · W_rᵀ (k, q))  +  bias q,

  with the same grouping of the additions: no law beyond reading each operation at an index is used, and the
  precondition (finite inputs) is never opened.

  The three frames are the generated frame runs (the reference's is its generated run with the result dropped); the
  idealization rewrote nothing, so there is nothing to preserve; the value claim sets the kernel's run, with its result
  array named as the layer of the arrays its region finds, beside the reference's run read stage by stage.
-/
import proofs.«125227_j36885179138430_1_alg».proof.Defs
import proofs.«125227_j36885179138430_1_alg».proof.Proof.Gen.Kernel
import proofs.«125227_j36885179138430_1_alg».proof.Proof.Gen.Kernel.Skeleton
import proofs.«125227_j36885179138430_1_alg».proof.Proof.Gen.Kernel.Launch
import proofs.«125227_j36885179138430_1_alg».proof.Proof.Gen.Kernel.Points
import proofs.«125227_j36885179138430_1_alg».proof.Proof.Gen.Kernel.Frame
import proofs.«125227_j36885179138430_1_alg».proof.Proof.Gen.KernelIdeal
import proofs.«125227_j36885179138430_1_alg».proof.Proof.Gen.KernelIdeal.Skeleton
import proofs.«125227_j36885179138430_1_alg».proof.Proof.Gen.KernelIdeal.Launch
import proofs.«125227_j36885179138430_1_alg».proof.Proof.Gen.KernelIdeal.Points
import proofs.«125227_j36885179138430_1_alg».proof.Proof.Gen.KernelIdeal.Frame
import proofs.«125227_j36885179138430_1_alg».proof.Proof.Gen.ReferenceIdeal
import proofs.«125227_j36885179138430_1_alg».proof.Proof.Gen.Pre_finite_inputs
import proofs.«125227_j36885179138430_1_alg».proof.Proof.Gen.KernelIdeal.Value
import proofs.«125227_j36885179138430_1_alg».proof.Proof.Gen.ReferenceIdeal.Run
import proofs.«125227_j36885179138430_1_alg».proof.Proof.Gen.ReferenceIdeal.Read
import proofs.«125227_j36885179138430_1_alg».proof.Proof.KernelValue
import proofs.«125227_j36885179138430_1_alg».proof.Proof.RefValue
import proofs.«125227_j36885179138430_1_alg».proof.Proof.EntryArrays
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at the layer of the arrays its
    region finds, and the reference's at the layer of its own stages of the same arguments: the same arrays, entry by
    entry where the layer reads them. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v30_eq (F := Ideal) _ _ _ _ _).trans ?_
  rw [Cert.ReferenceIdeal.LayerValue.result_eq]
  exact Cert.KernelIdeal.EntryArrays.layers_agree m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
